-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1024x512 : Shape := ⟨2, ![1024, 512]⟩
abbrev S1024 : Shape := ⟨1, ![1024]⟩
abbrev S1024x1024 : Shape := ⟨2, ![1024, 1024]⟩
abbrev S1024x4x128 : Shape := ⟨3, ![1024, 4, 128]⟩
abbrev S1024x4 : Shape := ⟨2, ![1024, 4]⟩
abbrev S1024x4x1 : Shape := ⟨3, ![1024, 4, 1]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v54 : BitVec 1 := Scalar.cmpi .eq arg2 c7_i32
  let v55 : BitVec 32 := Scalar.extui v54
  let c0_i32_20 : BitVec 32 := 0#32
  let v56 : BitVec 1 := Scalar.cmpi .ne v55 c0_i32_20
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S1024x4x128 : S1024x512.ShapeCasts S1024x4x128
  reduces_S1024x4x128_S1024x4 : S1024x4x128.Reduces [2] S1024x4
  shapeCasts_S1024x4_S1024x4x1 : S1024x4.ShapeCasts S1024x4x1
  broadcasts_S1024x4x1_S1024x4x128 : S1024x4x1.Broadcasts S1024x4x128
  shapeCasts_S1024x4x128_S1024x512 : S1024x4x128.ShapeCasts S1024x512
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩
abbrev S4x2048x32x128 : Shape := ⟨4, ![4, 2048, 32, 128]⟩
abbrev S4x2048x32 : Shape := ⟨3, ![4, 2048, 32]⟩
abbrev S4x2048x32x1 : Shape := ⟨4, ![4, 2048, 32, 1]⟩
abbrev S1x1x4096 : Shape := ⟨3, ![1, 1, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x32x128, .f32⟩
  | .hbm, ⟨4, _⟩ => ⟨S4096x32x128, .f32⟩
  | .hbm, ⟨5, _⟩ => ⟨S_, .f32⟩
  | .hbm, ⟨6, _⟩ => ⟨S4096x32, .f32⟩
  | .hbm, ⟨7, _⟩ => ⟨S4096x32x1, .f32⟩
  | .hbm, ⟨8, _⟩ => ⟨S_, .f32⟩
  | .hbm, ⟨9, _⟩ => ⟨S4096x32x1, .f32⟩
  | .hbm, ⟨10, _⟩ => ⟨S4096x32x1, .f32⟩
  | .hbm, ⟨11, _⟩ => ⟨S_, .f32⟩
  | .hbm, ⟨12, _⟩ => ⟨S4096x32x1, .f32⟩
  | .hbm, ⟨13, _⟩ => ⟨S4096x32x1, .i1⟩
  | .hbm, ⟨14, _⟩ => ⟨S_, .f32⟩
  | .hbm, ⟨15, _⟩ => ⟨S4096x32x1, .f32⟩
  | .hbm, ⟨16, _⟩ => ⟨S4096x32x1, .f32⟩
  | .hbm, ⟨17, _⟩ => ⟨S4096x32x128, .f32⟩
  | .hbm, ⟨18, _⟩ => ⟨S4096x32x128, .f32⟩
  | .hbm, ⟨19, _⟩ => ⟨S4096x32x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x32x128, .f32⟩
  | .hbm, ⟨24, _⟩ => ⟨S4096x32x128, .f32⟩
  | .hbm, ⟨25, _⟩ => ⟨S_, .f32⟩
  | .hbm, ⟨26, _⟩ => ⟨S4096x32x128, .f32⟩
  | .hbm, ⟨27, _⟩ => ⟨S4096x32x128, .f32⟩
  | .hbm, ⟨28, _⟩ => ⟨S4096x32x128, .f32⟩
  | .hbm, ⟨29, _⟩ => ⟨S4096x32x128, .f32⟩
  | .hbm, ⟨30, _⟩ => ⟨S4096x4096, .f32⟩
  | .hbm, ⟨31, _⟩ => ⟨S4x2048x32x128, .f32⟩
  | .hbm, ⟨32, _⟩ => ⟨S4x2048x32x128, .f32⟩
  | .hbm, ⟨33, _⟩ => ⟨S_, .f32⟩
  | .hbm, ⟨34, _⟩ => ⟨S4x2048x32, .f32⟩
  | .hbm, ⟨35, _⟩ => ⟨S4x2048x32x1, .f32⟩
  | .hbm, ⟨36, _⟩ => ⟨S_, .f32⟩
  | .hbm, ⟨37, _⟩ => ⟨S4x2048x32x1, .f32⟩
  | .hbm, ⟨38, _⟩ => ⟨S4x2048x32x1, .f32⟩
  | .hbm, ⟨39, _⟩ => ⟨S_, .f32⟩
  | .hbm, ⟨40, _⟩ => ⟨S4x2048x32x1, .f32⟩
  | .hbm, ⟨41, _⟩ => ⟨S4x2048x32x1, .i1⟩
  | .hbm, ⟨42, _⟩ => ⟨S_, .f32⟩
  | .hbm, ⟨43, _⟩ => ⟨S4x2048x32x1, .f32⟩
  | .hbm, ⟨44, _⟩ => ⟨S4x2048x32x1, .f32⟩
  | .hbm, ⟨45, _⟩ => ⟨S4x2048x32x128, .f32⟩
  | .hbm, ⟨46, _⟩ => ⟨S4x2048x32x128, .f32⟩
  | .hbm, ⟨47, _⟩ => ⟨S4x2048x32x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4x2048x32x128, .f32⟩
  | .hbm, ⟨52, _⟩ => ⟨S4x2048x32x128, .f32⟩
  | .hbm, ⟨53, _⟩ => ⟨S_, .f32⟩
  | .hbm, ⟨54, _⟩ => ⟨S4x2048x32x128, .f32⟩
  | .hbm, ⟨55, _⟩ => ⟨S4x2048x32x128, .f32⟩
  | .hbm, ⟨56, _⟩ => ⟨S4x2048x32x128, .f32⟩
  | .hbm, ⟨57, _⟩ => ⟨S4x2048x32x128, .f32⟩
  | .hbm, ⟨58, _⟩ => ⟨S4x2048x4096, .f32⟩
  | .hbm, ⟨59, _⟩ => ⟨S4x2048x4096, .f32⟩
  | .hbm, ⟨60, _⟩ => ⟨S1x1x4096, .f32⟩
  | .hbm, ⟨61, _⟩ => ⟨S4x2048x4096, .f32⟩
  | .hbm, ⟨62, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_cst_10 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  shapeCasts_S4096x4096_S4096x32x128 : S4096x4096.ShapeCasts S4096x32x128
  reducesTo_S4096x32x128_S4096x32_d2 : S4096x32x128.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x128_0_1_2 : S4096x32x1.BroadcastsInDim S4096x32x128 (![0, 1, 2] : Fin 3 → Fin S4096x32x128.rank)
  bcast_S_S4096x32x128 : S_.BroadcastsInDim S4096x32x128 (![] : Fin 0 → Fin S4096x32x128.rank)
  shapeCasts_S4096x32x128_S4096x4096 : S4096x32x128.ShapeCasts S4096x4096
  shapeCasts_S4x2048x4096_S4x2048x32x128 : S4x2048x4096.ShapeCasts S4x2048x32x128
  reducesTo_S4x2048x32x128_S4x2048x32_d3 : S4x2048x32x128.ReducesTo [3] S4x2048x32
  bcast_S4x2048x32_S4x2048x32x1_0_1_2 : S4x2048x32.BroadcastsInDim S4x2048x32x1 (![0, 1, 2] : Fin 3 → Fin S4x2048x32x1.rank)
  bcast_S_S4x2048x32x1 : S_.BroadcastsInDim S4x2048x32x1 (![] : Fin 0 → Fin S4x2048x32x1.rank)
  bcast_S4x2048x32x1_S4x2048x32x128_0_1_2_3 : S4x2048x32x1.BroadcastsInDim S4x2048x32x128 (![0, 1, 2, 3] : Fin 4 → Fin S4x2048x32x128.rank)
  bcast_S_S4x2048x32x128 : S_.BroadcastsInDim S4x2048x32x128 (![] : Fin 0 → Fin S4x2048x32x128.rank)
  shapeCasts_S4x2048x32x128_S4x2048x4096 : S4x2048x32x128.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one step of the kernel body leaves in the accumulator and in the output tile, as the body's own arithmetic.

  At the first step of a run of eight the accumulator is reset to the zero tile and then updated; at the later steps
  it is updated over what the step before left; at the last step the output tile is the updated accumulator plus the
  bias row. Each is read back from the stores the body makes: a later store that covers the whole tile decides it.
-/
import proofs.«116556_j76888504533247_1_alg».proof.Proof.Gen.KernelIdeal.Frame
import Idealize.ShloMosaic.Lib.Pipeline.Value
import Idealize.ShloMosaic.Lib.Tactic

set_option maxRecDepth 16384

noncomputable section

namespace Cert.KernelIdeal.Acc

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- One update of the accumulator `acc` by the activation tile `x` and the weight tile `w`. -/
abbrev upd (x w : Vec F S1024x512 .f32) (acc : Vec F S1024x1024 .f32) : Vec F S1024x1024 .f32 :=
  k0_pay1 (k0_pay4 x) (k0_pay6 w) (k0_pay7 w) (Scalar.ofBits .f32 0xC0E00000#32) acc

/-- First step of a run: the accumulator ends at the update of the zero tile. -/
theorem scr_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .f32) (x2 : Vec F S1024 .f32) :
    sout0_A_0 c i arg3 harg3 arg4 harg4 arg5 harg5 arg6 harg6 arg7 harg7 hc0 hc1 x0 x1 x2 = upd x0 x1 (k0_pay3 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- A middle step: the accumulator ends at the update of what the step before left. -/
theorem scr_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .f32) (x2 : Vec F S1024 .f32) (xs0 : Vec F S1024x1024 .f32) :
    sout0_B_0 c i arg3 harg3 arg4 harg4 arg5 harg5 arg6 harg6 arg7 harg7 hc0 hc1 x0 x1 x2 xs0 = upd x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x512) hz,
    View.ld_unit_zero (S := S1024x1024) hz]

/-- The last step: the accumulator likewise, -/
theorem scr_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1024 .f32) (xs0 : Vec F S1024x1024 .f32) :
    sout0_C_0 c i arg3 harg3 arg4 harg4 arg5 harg5 arg6 harg6 arg7 harg7 hc0 hc1 x0 x1 x2 xs0 = upd x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x512) hz,
    View.ld_unit_zero (S := S1024x1024) hz]

/-- and the output tile is that accumulator plus the bias row. -/
theorem out_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .f32) (x2 : Vec F S1024 .f32) (xs0 : Vec F S1024x1024 .f32) :
    out0_C_3 c i arg3 harg3 arg4 harg4 arg5 harg5 arg6 harg6 arg7 harg7 hc0 hc1 x0 x1 x2 xs0 = k0_pay2 (upd x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S1024x1024) _ hz, View.readAt_eq_ld, harg3.read_unread, harg4.read_unread,
    harg5.read_unread, harg7.read_unread, View.ld_unit_zero (S := S1024x512) hz, View.ld_unit_zero (S := S1024x1024) hz,
    View.ld_unit_zero (S := S1024) hz1]

end Cert.KernelIdeal.Acc

end
-- ==== Proof.QuantSpec.lean ====
/-
  Group-wise fake quantisation and the quantised linear layer, as functions on the extended reals.

  A row of 4096 entries is cut into 32 groups of 128 consecutive entries. A group's step is its largest magnitude
  divided by the top level `q` (127 for eight bits, 7 for four), or 1 where that quotient is zero; an entry `v` of
  the group becomes `clip (roundeven (v / step), -q, q) · step`. The layer's output at row `M` and column `o` is
  `Σₖ qx[M, k] · qw[o, k] + bias[o]` over the 4096 columns `k`, `qx` the rows of `x` requantised at eight bits and
  `qw` the rows of `weight` at four. Every operation is the exact one on the extended reals; nothing is assumed
  finite, since the only law used later is that a sum may be taken in consecutive runs.
-/
import Idealize.ShloMosaic.PureOps.Ideal
import Idealize.ShloMosaic.PureOps.Ideal.Laws
import Idealize.ShloMosaic.Lib.ValueIdx

noncomputable section

open scoped BigOperators

namespace Cert.Quant

open Idealize.ShloMosaic Idealize.ShloMosaic.ValueIdx

/-- An f32 bit pattern's value. -/
abbrev lit (w : BitVec 32) : EReal := Ideal.ofBits .f32 w

/-- The largest magnitude among a group's 128 entries, taken from `-∞`. -/
def gmax (γ : Fin 128 → EReal) : EReal :=
  (Finset.univ : Finset (Fin 128)).fold max (lit 0xFF800000#32) (fun l => max (γ l) (-(γ l)))

/-- The group's step: its largest magnitude over the top level, or 1 where that quotient is zero. -/
def step (q : BitVec 32) (γ : Fin 128 → EReal) : EReal :=
  Scalar.select (Ideal.cmp .oeq (Ideal.div (gmax γ) (lit q)) (lit 0x00000000#32)) (lit 0x3F800000#32)
    (Ideal.div (gmax γ) (lit q))

/-- One entry `v` of the group `γ` requantised: rounded to the nearest multiple of the step (ties to even), clipped
    to the levels `nq … q`. -/
def fq (q nq : BitVec 32) (γ : Fin 128 → EReal) (v : EReal) : EReal :=
  min (lit q) (max (lit nq) (Ideal.liftRound Ideal.roundHalfEven (Ideal.div v (step q γ)))) * step q γ

/-- Entry `i` of a row of 4096 requantised within its own group of 128 consecutive entries. -/
def qrow (q nq : BitVec 32) (ρ : Fin 4096 → EReal) (i : Fin 4096) : EReal :=
  fq q nq (fun l => ρ ⟨i.val / 128 * 128 + l.val, by have := i.isLt; have := l.isLt; omega⟩) (ρ i)

abbrev SX : Shape := ⟨3, ![4, 2048, 4096]⟩
abbrev SW : Shape := ⟨2, ![4096, 4096]⟩
abbrev SB : Shape := ⟨1, ![4096]⟩
abbrev SX2 : Shape := ⟨2, ![8192, 4096]⟩

/-- Row `M` of `x` read as 8192 rows: batch `M / 2048`, position `M % 2048`. -/
def xrow (X : SX.Idx → EReal) (M : Fin 8192) : Fin 4096 → EReal :=
  fun i => X (ix3 (⟨M.val / 2048, by have := M.isLt; omega⟩ : Fin 4) (⟨M.val % 2048, Nat.mod_lt _ (by decide)⟩ : Fin 2048) i)

/-- Row `o` of `weight`. -/
def wrow (W : SW.Idx → EReal) (o : Fin 4096) : Fin 4096 → EReal := fun i => W (ix2 o i)

/-- The product of the two requantised entries at column `k` (zero past the last column). -/
def term (X : SX.Idx → EReal) (W : SW.Idx → EReal) (M : Fin 8192) (o : Fin 4096) (k : ℕ) : EReal :=
  if h : k < 4096 then
    qrow 0x42FE0000#32 0xC2FE0000#32 (xrow X M) ⟨k, h⟩ * qrow 0x40E00000#32 0xC0E00000#32 (wrow W o) ⟨k, h⟩
  else 0

/-- The layer's output as 8192 rows of 4096. -/
def out2 (X : SX.Idx → EReal) (W : SW.Idx → EReal) (B : SB.Idx → EReal) : SX2.Idx → EReal :=
  fun j => ∑ k ∈ Finset.range 4096, term X W (j 0) (j 1) k + B (ix1 (j 1))

/-- The layer's output in the shape of `x`: entry `(b, s, o)` is row `2048·b + s`, column `o`. -/
def out (X : SX.Idx → EReal) (W : SW.Idx → EReal) (B : SB.Idx → EReal) : SX.Idx → EReal :=
  fun j => out2 X W B (ix2 (⟨(j 0).val * 2048 + (j 1).val, by have h0 : (j 0).val < 4 := (j 0).isLt; have h1 : (j 1).val < 2048 := (j 1).isLt; omega⟩ : Fin 8192) (j 2))

/-- The row of `x` read back from its batch and position. -/
theorem xrow_of (X : SX.Idx → EReal) (b : Fin 4) (s : Fin 2048) :
    xrow X ⟨b.val * 2048 + s.val, by have := b.isLt; have := s.isLt; omega⟩ = fun i => X (ix3 b s i) := by
  funext i
  unfold xrow
  have hb : (b.val * 2048 + s.val) / 2048 = b.val := by have := s.isLt; omega
  have hs : (b.val * 2048 + s.val) % 2048 = s.val := by have := s.isLt; omega
  congr 1
  funext a
  match a with
  | ⟨0, _⟩ => exact Fin.ext hb
  | ⟨1, _⟩ => exact Fin.ext hs
  | ⟨2, _⟩ => rfl

/-- The sum over the 4096 columns, listed by position, is the sum over the column indices. -/
theorem sum_term (X : SX.Idx → EReal) (W : SW.Idx → EReal) (M : Fin 8192) (o : Fin 4096) :
    ∑ k ∈ Finset.range 4096, term X W M o k
      = ∑ k : Fin 4096, qrow 0x42FE0000#32 0xC2FE0000#32 (xrow X M) k * qrow 0x40E00000#32 0xC0E00000#32 (wrow W o) k := by
  rw [Finset.sum_range]
  refine Finset.sum_congr rfl fun k _ => ?_
  unfold term
  rw [dif_pos k.isLt]

/-! ### A column summed in consecutive runs -/

variable {A : Type*} [AddCommMonoid A]

/-- The first `L·b` terms plus the next run of `L` are the first `L·(b+1)` terms. -/
theorem add_next_run (L : ℕ) (g : ℕ → A) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself, added to zero, is the first `L` terms. -/
theorem first_run (L : ℕ) (g : ℕ → A) :
    (0 : A) + ∑ r : Fin L, g (L * 0 + r.val) = ∑ k ∈ Finset.range (L * (0 + 1)), g k := by
  rw [zero_add, Nat.zero_add, Nat.mul_one, Finset.sum_range]
  exact Finset.sum_congr rfl fun r _ => by rw [Nat.mul_zero, Nat.zero_add]

end Cert.Quant

end
-- ==== Proof.Blocks.lean ====
/-
  Where the tiles of one grid step sit in the arrays.

  Step `n` of the 256 has coordinates `(n / 32, n / 8 % 4, n % 8)`: it reads rows `1024·(n/32) …` and columns
  `512·(n%8) …` of the activations (viewed as 8192 rows of 4096), rows `1024·(n/8%4) …` and the same columns of
  the weight, and entries `1024·(n/8%4) …` of the bias. The activations' 8192 rows are the rows of `x` in
  batch-major order.
-/
import proofs.«116556_j76888504533247_1_alg».proof.Proof.Gen.KernelIdeal.Frame
import proofs.«116556_j76888504533247_1_alg».proof.Proof.QuantSpec
import Idealize.ShloMosaic.Lib.Pipeline.Value
import Idealize.ShloMosaic.Lib.StableHlo.Run
import Idealize.ShloMosaic.Lib.ValueIdx

set_option maxRecDepth 16384

noncomputable section

namespace Cert.KernelIdeal.Acc

open Idealize.ShloMosaic Idealize.ShloMosaic.TcCoe Idealize.SL.Sem Cert.KernelIdeal Cert.KernelIdeal.Gen
open Idealize.ShloMosaic.ValueIdx Cert.Quant
open Idealize.ShloMosaic.Pipeline (Dat)

variable (m : (ℓ : Loc nD τ sig) → Buf (Elt Ideal) ℓ)

/-- The three argument arrays on core `c`. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- The tiles step `t` reads. -/
abbrev xblk (c : Dev nD) (t : Fin cfg0.N) : Vec Ideal S1024x512 .f32 := iblk m c 0 t
abbrev wblk (c : Dev nD) (t : Fin cfg0.N) : Vec Ideal S1024x512 .f32 := iblk m c 1 t
abbrev bblk (c : Dev nD) (t : Fin cfg0.N) : Vec Ideal S1024 .f32 := iblk m c 2 t

theorem lt256 (t : Fin cfg0.N) : t.val < 256 := lt_of_lt_of_eq t.isLt N_0

/-- Row `r` of step `n`'s activation tile, among the 8192 rows. -/
def rowOf (n : ℕ) (hn : n < 256) (r : Fin 1024) : Fin 8192 := ⟨n / 32 * 1024 + r.val, by have := r.isLt; omega⟩
/-- Row `q` of step `n`'s weight tile, among the 4096 rows. -/
def colOf (n : ℕ) (hn : n < 256) (q : Fin 1024) : Fin 4096 := ⟨n / 8 % 4 * 1024 + q.val, by have := q.isLt; omega⟩
/-- Column `e` of step `n`'s tiles, among the 4096 columns. -/
def kOf (n : ℕ) (e : Fin 512) : Fin 4096 := ⟨512 * (n % 8) + e.val, by have := e.isLt; omega⟩

/-- The block indices of the three input windows at each step. -/
theorem idx_x : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
theorem idx_b : ∀ t : Fin cfg0.N, win0_2.index t 0 = t.val / 8 % 4 :=
  (by decide +kernel : ∀ t : Fin grid0.N, win0_2.index t 0 = t.val / 8 % 4)
theorem idx_o : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- The activations as the region finds them: `x` viewed as 8192 rows. -/
theorem V_x2 (c : Dev nD) : (V m c main_v0 : S8192x4096.Idx → EReal)
    = shapeCast S8192x4096 (argX m c) shapeCasts_S4x2048x4096_S8192x4096 := by
  show StableHlo.after hostOps0 (fun b => m (c, b)) (Proc.devRef .tc main_v0) = _
  after_results
  rfl

/-- Row `M` of that view is row `M` of `x` in batch-major order. -/
theorem V_x2_apply (c : Dev nD) (M : Fin 8192) (k : Fin 4096) :
    (V m c main_v0 : S8192x4096.Idx → EReal) (ix2 M k) = xrow (argX m c) M k := by
  rw [V_x2]
  unfold xrow
  refine shapeCast_apply (argX m c) shapeCasts_S4x2048x4096_S8192x4096 (ix2 M k) _ ?_
  rewrite [Shape.rowMajor_val_three, Shape.rowMajor_val_two]
  show (M.val / 2048 * 2048 + M.val % 2048) * 4096 + k.val = M.val * 4096 + k.val
  have := M.isLt
  omega

/-- The activation tile of step `t`, entry by entry. -/
theorem xblk_apply (c : Dev nD) (t : Fin cfg0.N) (r : Fin 1024) (e : Fin 512) :
    xblk m c t (ix2 r e) = xrow (argX m c) (rowOf t.val (lt256 t) r) (kOf t.val e) := by
  rw [← V_x2_apply]
  show iblk m c 0 t (ix2 r e) = _
  unfold iblk
  rw [View.read_apply]
  show V m c main_v0 _ = V m c main_v0 _
  congr 1
  funext a
  apply Fin.ext
  match a with
  | ⟨0, _⟩ => show win0_0.index t 0 * 1024 + 1 * r.val = t.val / 32 * 1024 + r.val; rw [(idx_x t).1]; omega
  | ⟨1, _⟩ => show win0_0.index t 1 * 512 + 1 * e.val = 512 * (t.val % 8) + e.val; rw [(idx_x t).2]; omega

/-- The weight tile of step `t`, entry by entry. -/
theorem wblk_apply (c : Dev nD) (t : Fin cfg0.N) (q : Fin 1024) (e : Fin 512) :
    wblk m c t (ix2 q e) = wrow (argW m c) (colOf t.val (lt256 t) q) (kOf t.val e) := by
  unfold wrow argW
  rw [← V_main_arg1 m c]
  show iblk m c 1 t (ix2 q e) = _
  unfold iblk
  rw [View.read_apply]
  show V m c main_arg1 _ = V m c main_arg1 _
  congr 1
  funext a
  apply Fin.ext
  match a with
  | ⟨0, _⟩ => show win0_1.index t 0 * 1024 + 1 * q.val = t.val / 8 % 4 * 1024 + q.val; rw [(idx_w t).1]; omega
  | ⟨1, _⟩ => show win0_1.index t 1 * 512 + 1 * e.val = 512 * (t.val % 8) + e.val; rw [(idx_w t).2]; omega

/-- The bias tile of step `t`, entry by entry. -/
theorem bblk_apply (c : Dev nD) (t : Fin cfg0.N) (q : Fin 1024) :
    bblk m c t (ix1 q) = argB m c (ix1 (colOf t.val (lt256 t) q)) := by
  unfold argB
  rw [← V_main_arg2 m c]
  show iblk m c 2 t (ix1 q) = _
  unfold iblk
  rw [View.read_apply]
  show V m c main_arg2 _ = V m c main_arg2 _
  congr 1
  funext a
  apply Fin.ext
  match a with
  | ⟨0, _⟩ => show win0_2.index t 0 * 1024 + 1 * q.val = t.val / 8 % 4 * 1024 + q.val; rw [idx_b t]; omega

end Cert.KernelIdeal.Acc

end
-- ==== Proof.TilePayload.lean ====
/-
  The kernel body's arithmetic on one tile, read entry by entry on the extended reals.
-/
import proofs.«116556_j76888504533247_1_alg».proof.Proof.Gen.KernelIdeal.Skeleton
import proofs.«116556_j76888504533247_1_alg».proof.Proof.QuantSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Quant

/-- The 128 entries of the group that column `c` of row `r` of a 1024 × 512 tile lies in. -/
def tgrp (v : S1024x512.Idx → EReal) (r : Fin 1024) (c : Fin 512) : Fin 128 → EReal :=
  fun l => v (ix2 r (⟨c.val / 128 * 128 + l.val, by have := c.isLt; have := l.isLt; omega⟩ : Fin 512))

/-- The tile viewed as 4 groups of 128 per row, at row `r`, group `g`, lane `l`. -/
theorem split_apply (v : Vec Ideal S1024x512 .f32) (r : Fin 1024) (g : Fin 4) (l : Fin 128) :
    shapeCast S1024x4x128 v shapeCasts_S1024x512_S1024x4x128 (ix3 r g l)
      = v (ix2 r (⟨g.val * 128 + l.val, by have := g.isLt; have := l.isLt; omega⟩ : Fin 512)) := by
  refine shapeCast_apply v _ (ix3 r g l) (ix2 r ⟨g.val * 128 + l.val, by have := g.isLt; have := l.isLt; omega⟩) ?_
  rw [Shape.rowMajor_val_two, Shape.rowMajor_val_three]
  show r.val * 512 + (g.val * 128 + l.val) = (r.val * 4 + g.val) * 128 + l.val
  omega

/-- The grouped value viewed back as a tile, at row `r`, column `c`. -/
theorem merge_apply (y : FVec Ideal S1024x4x128 .f32) (r : Fin 1024) (c : Fin 512) :
    shapeCast S1024x512 y shapeCasts_S1024x4x128_S1024x512 (ix2 r c)
      = y (ix3 r (⟨c.val / 128, by have := c.isLt; omega⟩ : Fin 4) (⟨c.val % 128, Nat.mod_lt _ (by decide)⟩ : Fin 128)) := by
  refine shapeCast_apply y _ (ix2 r c) (ix3 r ⟨c.val / 128, by have := c.isLt; omega⟩ ⟨c.val % 128, Nat.mod_lt _ (by decide)⟩) ?_
  rw [Shape.rowMajor_val_two, Shape.rowMajor_val_three]
  show (r.val * 4 + c.val / 128) * 128 + c.val % 128 = r.val * 512 + c.val
  omega

/-- Lane `l` inserted on axis 2 of the index `(r, g)` is `(r, g, l)`. -/
theorem lift_apply (h : S1024x4x128.Reduces [2] S1024x4) (r : Fin 1024) (g : Fin 4) (l : Fin 128) :
    h.lift (ix2 r g) l = ix3 r g l := by
  funext a
  apply Fin.ext
  match a with
  | ⟨0, _⟩ => rfl
  | ⟨1, _⟩ => rfl
  | ⟨2, _⟩ => rfl

/-- The maximum over the lanes of a group, from `-∞`. -/
theorem rowmax_apply (y : FVec Ideal S1024x4x128 .f32) (r : Fin 1024) (g : Fin 4) :
    multiReduction .maximumf [2] S1024x4 y 0xFF800000#32 reduces_S1024x4x128_S1024x4 (.inl rfl) rfl (ix2 r g)
      = (Finset.univ : Finset (Fin 128)).fold max (lit 0xFF800000#32) (fun l => y (ix3 r g l)) := by
  refine (Ideal.multiReduction_maximumf_single y _ reduces_S1024x4x128_S1024x4 _ _ (ix2 r g)).trans ?_
  exact congrArg (fun f : Fin 128 → EReal => (Finset.univ : Finset (Fin 128)).fold max (lit 0xFF800000#32) f)
    (funext fun l => congrArg y (lift_apply reduces_S1024x4x128_S1024x4 r g l))

/-- The per-group value with a trailing unit axis added. -/
theorem unit_apply (m : FVec Ideal S1024x4 .f32) (r : Fin 1024) (g : Fin 4) (k : Fin 1) :
    shapeCast S1024x4x1 m shapeCasts_S1024x4_S1024x4x1 (ix3 r g k) = m (ix2 r g) := by
  refine shapeCast_apply m _ (ix3 r g k) (ix2 r g) ?_
  rw [Shape.rowMajor_val_two, Shape.rowMajor_val_three]
  show r.val * 4 + g.val = (r.val * 4 + g.val) * 1 + k.val
  have := k.isLt
  omega

/-- The per-group value spread over the group's lanes. -/
theorem spread_apply (s : FVec Ideal S1024x4x1 .f32) (r : Fin 1024) (g : Fin 4) (l : Fin 128) :
    broadcastTo S1024x4x128 s broadcasts_S1024x4x1_S1024x4x128 (ix3 r g l) = s (ix3 r g (0 : Fin 1)) := by
  refine broadcastTo_apply s _ (ix3 r g l) (ix3 r g (0 : Fin 1)) (fun a => ?_)
  match a with
  | ⟨0, _⟩ => rfl
  | ⟨1, _⟩ => rfl
  | ⟨2, _⟩ => rfl

/-- The per-group step of a grouped tile as the kernel computes it: the group's largest magnitude over the top
    level `q`, or 1 where that quotient is zero. -/
def kstep (q : BitVec 32) (y : FVec Ideal S1024x4x128 .f32) : FVec Ideal S1024x4x1 .f32 :=
  select
    (cmpf .oeq
      (divf (shapeCast S1024x4x1 (multiReduction .maximumf [2] S1024x4 (absf y) 0xFF800000#32 reduces_S1024x4x128_S1024x4 (.inl rfl) rfl) shapeCasts_S1024x4_S1024x4x1)
        (broadcast S1024x4x1 (Scalar.ofBits .f32 q)))
      (broadcast S1024x4x1 (Scalar.ofBits .f32 0x00000000#32)))
    (broadcast S1024x4x1 (Scalar.ofBits .f32 0x3F800000#32))
    (divf (shapeCast S1024x4x1 (multiReduction .maximumf [2] S1024x4 (absf y) 0xFF800000#32 reduces_S1024x4x128_S1024x4 (.inl rfl) rfl) shapeCasts_S1024x4_S1024x4x1)
      (broadcast S1024x4x1 (Scalar.ofBits .f32 q)))

/-- The kernel's step at group `(r, g)` is the specification's step of that group's entries. -/
theorem kstep_apply (q : BitVec 32) (y : FVec Ideal S1024x4x128 .f32) (r : Fin 1024) (g : Fin 4) (k : Fin 1) :
    kstep q y (ix3 r g k) = step q (fun l => y (ix3 r g l)) := by
  have e : shapeCast S1024x4x1 (multiReduction .maximumf [2] S1024x4 (absf y) 0xFF800000#32 reduces_S1024x4x128_S1024x4 (.inl rfl) rfl) shapeCasts_S1024x4_S1024x4x1 (ix3 r g k)
      = gmax (fun l => y (ix3 r g l)) := by
    rw [unit_apply, rowmax_apply]
    rfl
  show Scalar.select (Ideal.cmp .oeq (Ideal.div (shapeCast S1024x4x1 (multiReduction .maximumf [2] S1024x4 (absf y) 0xFF800000#32 reduces_S1024x4x128_S1024x4 (.inl rfl) rfl) shapeCasts_S1024x4_S1024x4x1 (ix3 r g k)) (lit q)) (lit 0x00000000#32))
      (lit 0x3F800000#32)
      (Ideal.div (shapeCast S1024x4x1 (multiReduction .maximumf [2] S1024x4 (absf y) 0xFF800000#32 reduces_S1024x4x128_S1024x4 (.inl rfl) rfl) shapeCasts_S1024x4_S1024x4x1 (ix3 r g k)) (lit q)) = _
  rw [e]
  rfl

/-- A grouped tile requantised as the kernel computes it: divided by its group's step, rounded to even, clipped to
    `nq … q`, times the step. -/
def kfq (q nq : BitVec 32) (y : FVec Ideal S1024x4x128 .f32) : FVec Ideal S1024x4x128 .f32 :=
  mulf
    (minimumf (broadcast S1024x4x128 (Scalar.ofBits .f32 q))
      (maximumf (broadcast S1024x4x128 (Scalar.ofBits .f32 nq))
        (roundeven (divf y (broadcastTo S1024x4x128 (kstep q y) broadcasts_S1024x4x1_S1024x4x128)))))
    (broadcastTo S1024x4x128 (kstep q y) broadcasts_S1024x4x1_S1024x4x128)

/-- The kernel's requantised entry at `(r, g, l)` is the specification's, within the group `(r, g)`. -/
theorem kfq_apply (q nq : BitVec 32) (y : FVec Ideal S1024x4x128 .f32) (r : Fin 1024) (g : Fin 4) (l : Fin 128) :
    kfq q nq y (ix3 r g l) = fq q nq (fun l' => y (ix3 r g l')) (y (ix3 r g l)) := by
  have e : broadcastTo S1024x4x128 (kstep q y) broadcasts_S1024x4x1_S1024x4x128 (ix3 r g l) = step q (fun l' => y (ix3 r g l')) := by
    rw [spread_apply, kstep_apply]
  show min (lit q) (max (lit nq) (Ideal.liftRound Ideal.roundHalfEven (Ideal.div (y (ix3 r g l))
        (broadcastTo S1024x4x128 (kstep q y) broadcasts_S1024x4x1_S1024x4x128 (ix3 r g l)))))
      * broadcastTo S1024x4x128 (kstep q y) broadcasts_S1024x4x1_S1024x4x128 (ix3 r g l) = _
  rw [e]
  rfl

/-- The cell `(r, c)` of the tile within the grouped view. -/
theorem cell_apply (v : Vec Ideal S1024x512 .f32) (r : Fin 1024) (c : Fin 512) :
    shapeCast S1024x4x128 v shapeCasts_S1024x512_S1024x4x128
        (ix3 r (⟨c.val / 128, by have := c.isLt; omega⟩ : Fin 4) (⟨c.val % 128, Nat.mod_lt _ (by decide)⟩ : Fin 128))
      = v (ix2 r c) := by
  refine (split_apply v r _ _).trans ?_
  exact congrArg v (congrArg (ix2 r) (Fin.ext (by show c.val / 128 * 128 + c.val % 128 = c.val; omega)))

/-- The group of the cell `(r, c)` within the grouped view is `tgrp v r c`. -/
theorem cellgrp_apply (v : Vec Ideal S1024x512 .f32) (r : Fin 1024) (c : Fin 512) :
    (fun l : Fin 128 => shapeCast S1024x4x128 v shapeCasts_S1024x512_S1024x4x128
        (ix3 r (⟨c.val / 128, by have := c.isLt; omega⟩ : Fin 4) l)) = tgrp v r c :=
  funext fun l => split_apply v r _ l

/-- The requantised tile, as the kernel computes it through the grouped view, at `(r, c)`. -/
theorem kfq_cell (q nq : BitVec 32) (v : Vec Ideal S1024x512 .f32) (r : Fin 1024) (c : Fin 512) :
    shapeCast S1024x512 (kfq q nq (shapeCast S1024x4x128 v shapeCasts_S1024x512_S1024x4x128)) shapeCasts_S1024x4x128_S1024x512 (ix2 r c)
      = fq q nq (tgrp v r c) (v (ix2 r c)) := by
  rw [merge_apply, kfq_apply, cellgrp_apply, cell_apply]

/-- The activation payload is the requantisation at eight bits through the grouped view. -/
theorem pay4_eq (v : Vec Ideal S1024x512 .f32) :
    k0_pay4 (F := Ideal) v
      = shapeCast S1024x512 (kfq 0x42FE0000#32 0xC2FE0000#32 (shapeCast S1024x4x128 v shapeCasts_S1024x512_S1024x4x128)) shapeCasts_S1024x4x128_S1024x512 := by
  unfold k0_pay4
  rw [shapeCast_self]
  rfl

/-- The requantised activation tile at `(r, c)`. -/
theorem pay4_apply (v : Vec Ideal S1024x512 .f32) (r : Fin 1024) (c : Fin 512) :
    k0_pay4 (F := Ideal) v (ix2 r c) = fq 0x42FE0000#32 0xC2FE0000#32 (tgrp v r c) (v (ix2 r c)) := by
  rw [pay4_eq, kfq_cell]

/-- The left operand's row at output index `j` is `j`'s row. -/
theorem lhs_axis0 (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl

/-- The left operand's column is the contraction position. -/
theorem lhs_axis1 (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  dot_S1024x512_S1024x512_S1024x1024_1_1_0_0_n_n.lhsIdx_val_of_single rfl j k

/-- The right operand's row at output index `j` is `j`'s column. -/
theorem rhs_axis0 (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl

/-- The right operand's column is the contraction position. -/
theorem rhs_axis1 (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  dot_S1024x512_S1024x512_S1024x1024_1_1_0_0_n_n.rhsIdx_val_of_single rfl j k

/-- The product of two tiles contracting their columns, into zero, at `(r, q)`: the sum over the 512 columns. -/
theorem dot_apply (a b : FVec Ideal S1024x512 .bf16) (r q : Fin 1024) :
    matmul dot_S1024x512_S1024x512_S1024x1024_1_1_0_0_n_n none a b (constant S1024x1024 .f32 0x00000000#32) (ix2 r q)
      = ∑ c : Fin 512, a (ix2 r c) * b (ix2 q c) := by
  show FloatOps.matmul dot_S1024x512_S1024x512_S1024x1024_1_1_0_0_n_n none a b (constant S1024x1024 .f32 0x00000000#32) (ix2 r q) = _
  rw [Ideal.matmul_constant_zero_apply, ← Equiv.sum_comp (contrEquiv1 dot_S1024x512_S1024x512_S1024x1024_1_1_0_0_n_n 512 rfl rfl).symm]
  refine Finset.sum_congr rfl fun c _ => ?_
  have hk := contrEquiv1_symm_val dot_S1024x512_S1024x512_S1024x1024_1_1_0_0_n_n 512 rfl rfl c
  have el : dot_S1024x512_S1024x512_S1024x1024_1_1_0_0_n_n.lhsIdx (ix2 r q) ((contrEquiv1 dot_S1024x512_S1024x512_S1024x1024_1_1_0_0_n_n 512 rfl rfl).symm c) = ix2 r c := funext fun x => Fin.ext (by
    match x with
    | ⟨0, _⟩ => exact lhs_axis0 _ _
    | ⟨1, _⟩ => exact (lhs_axis1 _ _).trans hk)
  have er : dot_S1024x512_S1024x512_S1024x1024_1_1_0_0_n_n.rhsIdx (ix2 r q) ((contrEquiv1 dot_S1024x512_S1024x512_S1024x1024_1_1_0_0_n_n 512 rfl rfl).symm c) = ix2 q c := funext fun x => Fin.ext (by
    match x with
    | ⟨0, _⟩ => exact rhs_axis0 _ _
    | ⟨1, _⟩ => exact (rhs_axis1 _ _).trans hk)
  rw [el, er]

/-- The accumulator payload: what it held plus the product of the requantised activation tile with the weight tile
    requantised at four bits through the grouped view. -/
theorem pay1_eq (x w : Vec Ideal S1024x512 .f32) (acc : Vec Ideal S1024x1024 .f32) :
    k0_pay1 (F := Ideal) (k0_pay4 x) (k0_pay6 w) (k0_pay7 w) (Scalar.ofBits .f32 0xC0E00000#32) acc
      = addf acc (matmul dot_S1024x512_S1024x512_S1024x1024_1_1_0_0_n_n none
          (truncf .bf16 (k0_pay4 x) bitsLt_bf16_f32)
          (truncf .bf16 (shapeCast S1024x512 (kfq 0x40E00000#32 0xC0E00000#32 (shapeCast S1024x4x128 w shapeCasts_S1024x512_S1024x4x128)) shapeCasts_S1024x4x128_S1024x512) bitsLt_bf16_f32)
          (constant S1024x1024 .f32 0x00000000#32)) := by
  exact shapeCast_self (addf acc (matmul dot_S1024x512_S1024x512_S1024x1024_1_1_0_0_n_n none
          (truncf .bf16 (k0_pay4 x) bitsLt_bf16_f32)
          (truncf .bf16 (shapeCast S1024x512 (kfq 0x40E00000#32 0xC0E00000#32 (shapeCast S1024x4x128 w shapeCasts_S1024x512_S1024x4x128)) shapeCasts_S1024x4x128_S1024x512) bitsLt_bf16_f32)
          (constant S1024x1024 .f32 0x00000000#32))) shapeCasts_S1024x1024_S1024x1024

/-- The accumulator after one step at `(r, q)`: what it held plus the 512 products of the two requantised tiles. -/
theorem pay1_apply (x w : Vec Ideal S1024x512 .f32) (acc : Vec Ideal S1024x1024 .f32) (r q : Fin 1024) :
    k0_pay1 (F := Ideal) (k0_pay4 x) (k0_pay6 w) (k0_pay7 w) (Scalar.ofBits .f32 0xC0E00000#32) acc (ix2 r q)
      = acc (ix2 r q) + ∑ c : Fin 512, fq 0x42FE0000#32 0xC2FE0000#32 (tgrp x r c) (x (ix2 r c))
          * fq 0x40E00000#32 0xC0E00000#32 (tgrp w q c) (w (ix2 q c)) := by
  rw [pay1_eq, addf_apply, dot_apply]
  refine congrArg (acc (ix2 r q) + ·) (Finset.sum_congr rfl fun c _ => ?_)
  rw [truncf_apply, truncf_apply, pay4_apply, kfq_cell]

/-- The bias row at `(0, q)` of its one-row view. -/
theorem biasrow_apply (b : Vec Ideal S1024 .f32) (z : Fin 1) (q : Fin 1024) :
    shapeCast S1x1024 b shapeCasts_S1024_S1x1024 (ix2 z q) = b (ix1 q) := by
  refine shapeCast_apply b _ (ix2 z q) (ix1 q) ?_
  rw [Shape.rowMajor_val_one, Shape.rowMajor_val_two]
  show q.val = z.val * 1024 + q.val
  have := z.isLt
  omega

/-- The one-row view repeated down the rows. -/
theorem down_apply (s : FVec Ideal S1x1024 .f32) (r q : Fin 1024) :
    broadcastTo S1024x1024 s broadcasts_S1x1024_S1024x1024 (ix2 r q) = s (ix2 (0 : Fin 1) q) := by
  refine broadcastTo_apply s _ (ix2 r q) (ix2 (0 : Fin 1) q) (fun a => ?_)
  match a with
  | ⟨0, _⟩ => rfl
  | ⟨1, _⟩ => rfl

/-- The output tile at `(r, q)`: the accumulator plus the bias of column `q`. -/
theorem pay2_apply (acc : Vec Ideal S1024x1024 .f32) (b : Vec Ideal S1024 .f32) (r q : Fin 1024) :
    k0_pay2 (F := Ideal) acc b (ix2 r q) = acc (ix2 r q) + b (ix1 q) := by
  unfold k0_pay2
  show acc (ix2 r q) + broadcastTo S1024x1024 (shapeCast S1x1024 b shapeCasts_S1024_S1x1024) broadcasts_S1x1024_S1024x1024 (ix2 r q) = _
  rw [down_apply, biasrow_apply]

/-- The reset tile is zero. -/
theorem pay3_apply (r q : Fin 1024) : k0_pay3 (F := Ideal) (ix2 r q) = 0 := by
  unfold k0_pay3
  rw [shapeCast_self]
  exact Ideal.ofBits_zero_f32

end Cert.KernelIdeal.Tile

end
-- ==== Proof.Accum.lean ====
/-
  The accumulator across a run of eight grid steps.

  Steps `8a … 8a+7` share their activation rows and weight rows and walk the 4096 columns in eight runs of 512. After
  the step with `n % 8 = j` the accumulator holds, at `(r, q)`, the sum of the first `512·(j+1)` column products
  `qx[M, k] · qw[o, k]` of activation row `M` and weight row `o`; after the last one that is the whole column sum, and
  the output tile is it plus the bias.
-/
import proofs.«116556_j76888504533247_1_alg».proof.Proof.Pieces
import proofs.«116556_j76888504533247_1_alg».proof.Proof.Blocks
import proofs.«116556_j76888504533247_1_alg».proof.Proof.TilePayload

set_option maxRecDepth 16384

noncomputable section

open scoped BigOperators

namespace Cert.KernelIdeal.Acc

open Idealize.ShloMosaic Idealize.ShloMosaic.TcCoe Idealize.SL.Sem Cert.KernelIdeal Cert.KernelIdeal.Gen
open Idealize.ShloMosaic.ValueIdx Cert.Quant Cert.KernelIdeal.Tile
open Idealize.ShloMosaic.Pipeline (Dat)

variable (m : (ℓ : Loc nD τ sig) → Buf (Elt Ideal) ℓ)

/-- A group of the activation tile is the group of the activation row it lies in. -/
theorem tgrp_x (c : Dev nD) (t : Fin cfg0.N) (r : Fin 1024) (e : Fin 512) :
    tgrp (xblk m c t) r e = fun l : Fin 128 => xrow (argX m c) (rowOf t.val (lt256 t) r)
      ⟨(kOf t.val e).val / 128 * 128 + l.val, by have := (kOf t.val e).isLt; have := l.isLt; omega⟩ := by
  funext l
  unfold tgrp
  rw [xblk_apply]
  congr 1
  apply Fin.ext
  show 512 * (t.val % 8) + (e.val / 128 * 128 + l.val) = (512 * (t.val % 8) + e.val) / 128 * 128 + l.val
  omega

/-- A group of the weight tile is the group of the weight row it lies in. -/
theorem tgrp_w (c : Dev nD) (t : Fin cfg0.N) (q : Fin 1024) (e : Fin 512) :
    tgrp (wblk m c t) q e = fun l : Fin 128 => wrow (argW m c) (colOf t.val (lt256 t) q)
      ⟨(kOf t.val e).val / 128 * 128 + l.val, by have := (kOf t.val e).isLt; have := l.isLt; omega⟩ := by
  funext l
  unfold tgrp
  rw [wblk_apply]
  congr 1
  apply Fin.ext
  show 512 * (t.val % 8) + (e.val / 128 * 128 + l.val) = (512 * (t.val % 8) + e.val) / 128 * 128 + l.val
  omega

/-- The product of the two requantised tiles at column `e` of step `t` is the layer's column product there. -/
theorem tile_term (c : Dev nD) (t : Fin cfg0.N) (r q : Fin 1024) (e : Fin 512) :
    fq 0x42FE0000#32 0xC2FE0000#32 (tgrp (xblk m c t) r e) (xblk m c t (ix2 r e))
        * fq 0x40E00000#32 0xC0E00000#32 (tgrp (wblk m c t) q e) (wblk m c t (ix2 q e))
      = term (argX m c) (argW m c) (rowOf t.val (lt256 t) r) (colOf t.val (lt256 t) q) (512 * (t.val % 8) + e.val) := by
  have hk : 512 * (t.val % 8) + e.val < 4096 := (kOf t.val e).isLt
  unfold term
  rw [dif_pos hk, tgrp_x, tgrp_w, xblk_apply, wblk_apply]
  rfl

/-- One update at `(r, q)`: what the accumulator held plus this step's run of 512 column products. -/
theorem upd_apply (c : Dev nD) (t : Fin cfg0.N) (acc : Vec Ideal S1024x1024 .f32) (r q : Fin 1024) :
    upd (xblk m c t) (wblk m c t) acc (ix2 r q)
      = acc (ix2 r q) + ∑ e : Fin 512, term (argX m c) (argW m c) (rowOf t.val (lt256 t) r) (colOf t.val (lt256 t) q)
          (512 * (t.val % 8) + e.val) := by
  refine (pay1_apply (xblk m c t) (wblk m c t) acc r q).trans ?_
  exact congrArg (acc (ix2 r q) + ·) (Finset.sum_congr rfl fun e _ => tile_term m c t r q e)

/-- The sum the accumulator holds at `(r, q)` after step `n`. -/
abbrev partialSum (c : Dev nD) (n : ℕ) (hn : n < 256) (r q : Fin 1024) : EReal :=
  ∑ k ∈ Finset.range (512 * (n % 8 + 1)), term (argX m c) (argW m c) (rowOf n hn r) (colOf n hn q) k

/-- The first step of a run: from the zero tile, the first 512 column products. -/
theorem scratch_first (c : Dev nD) (t : Fin cfg0.N) (h0 : t.val % 8 = 0) (r q : Fin 1024) :
    (outsAt0 m c t.val t.isLt).2 (ix2 r q) = partialSum m c t.val (lt256 t) r q := by
  have h1 : ¬t.val % 8 = 7 := by omega
  rw [outsAt0_A m c t h0 h1]
  dsimp only
  refine (congrFun (scr_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 r q)).trans ?_
  refine (upd_apply m c t (k0_pay3 (F := Ideal)) r q).trans ?_
  rw [pay3_apply]
  unfold partialSum
  rw [h0]
  exact first_run 512 _

/-- A later step of a run: the next 512 column products on top of what the step before left. -/
theorem scratch_next (c : Dev nD) (n : ℕ) (hn : n + 1 < cfg0.N) (h0 : ¬(n + 1) % 8 = 0) (r q : Fin 1024)
    (ih : (outsAt0 m c n (Nat.lt_of_succ_lt hn)).2 (ix2 r q) = partialSum m c n (lt256 ⟨n, Nat.lt_of_succ_lt hn⟩) r q) :
    (outsAt0 m c (n + 1) hn).2 (ix2 r q) = partialSum m c (n + 1) (lt256 ⟨n + 1, hn⟩) r q := by
  have hN : n + 1 < 256 := lt256 ⟨n + 1, hn⟩
  have hrow : rowOf n (by omega) r = rowOf (n + 1) hN r :=
    Fin.ext (by show n / 32 * 1024 + r.val = (n + 1) / 32 * 1024 + r.val; omega)
  have hcol : colOf n (by omega) q = colOf (n + 1) hN q :=
    Fin.ext (by show n / 8 % 4 * 1024 + q.val = (n + 1) / 8 % 4 * 1024 + q.val; omega)
  have hk : n % 8 + 1 = (n + 1) % 8 := by omega
  have step : upd (xblk m c ⟨n + 1, hn⟩) (wblk m c ⟨n + 1, hn⟩) (outsAt0 m c n (Nat.lt_of_succ_lt hn)).2 (ix2 r q)
      = partialSum m c (n + 1) hN r q := by
    rw [upd_apply, ih]
    unfold partialSum
    rw [hrow, hcol, hk]
    exact add_next_run 512 _ ((n + 1) % 8)
  by_cases h1 : (n + 1) % 8 = 7
  · rw [outsAt0_C m c ⟨n + 1, hn⟩ h0 h1]
    dsimp only
    refine (congrFun (scr_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2) (ix2 r q)).trans ?_
    exact step
  · rw [outsAt0_B m c ⟨n + 1, hn⟩ h0 h1]
    dsimp only
    refine (congrFun (scr_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c ((⟨n + 1, hn⟩ : Fin cfg0.N).val - 1) (Nat.lt_of_le_of_lt (Nat.sub_le _ _) (⟨n + 1, hn⟩ : Fin cfg0.N).isLt)).2) (ix2 r q)).trans ?_
    exact step

/-- After every step the accumulator holds the partial column sum of its run. -/
theorem scratch_eq (c : Dev nD) : ∀ (n : ℕ) (hn : n < cfg0.N) (r q : Fin 1024),
    (outsAt0 m c n hn).2 (ix2 r q) = partialSum m c n (lt256 ⟨n, hn⟩) r q := by
  intro n
  induction n with
  | zero => intro hn r q; exact scratch_first m c ⟨0, hn⟩ rfl r q
  | succ n ih =>
    intro hn r q
    by_cases h0 : (n + 1) % 8 = 0
    · exact scratch_first m c ⟨n + 1, hn⟩ h0 r q
    · exact scratch_next m c n hn h0 r q (ih (Nat.lt_of_succ_lt hn) r q)

/-- At the last step of a run the output tile holds the layer's output: the whole column sum plus the bias. -/
theorem out_eq (c : Dev nD) (t : Fin cfg0.N) (h1 : t.val % 8 = 7) (r q : Fin 1024) :
    (outsAt0 m c t.val t.isLt).1 (ix2 r q)
      = out2 (argX m c) (argW m c) (argB m c) (ix2 (rowOf t.val (lt256 t) r) (colOf t.val (lt256 t) q)) := by
  have h0 : ¬t.val % 8 = 0 := by omega
  have hs := scratch_eq m c t.val t.isLt r q
  rw [outsAt0_C m c t h0 h1] at hs ⊢
  dsimp only at hs ⊢
  have hs' := (congrFun (scr_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c ((t : Fin cfg0.N).val - 1) (Nat.lt_of_le_of_lt (Nat.sub_le _ _) (t : Fin cfg0.N).isLt)).2) (ix2 r q)).symm.trans hs
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c ((t : Fin cfg0.N).val - 1) (Nat.lt_of_le_of_lt (Nat.sub_le _ _) (t : Fin cfg0.N).isLt)).2) (ix2 r q)).trans ?_
  rw [pay2_apply, hs']
  show _ + bblk m c t (ix1 q) = _
  rw [bblk_apply]
  unfold partialSum out2
  rw [h1]

end Cert.KernelIdeal.Acc

end
-- ==== Proof.KernelValue.lean ====
/-
  The kernel's result array.

  The last step of each run of eight writes its output tile back; those 32 tiles of 1024 × 1024 tile the 8192 × 4096
  array, so after the region it holds the layer's output as 8192 rows, and the reshape that follows gives it the
  shape of `x`.
-/
import proofs.«116556_j76888504533247_1_alg».proof.Proof.Accum
import Idealize.ShloMosaic.Lib.Pipeline.FrameSuffix

set_option maxRecDepth 16384

noncomputable section

open scoped BigOperators

namespace Cert.KernelIdeal.Acc

open Idealize.ShloMosaic Idealize.ShloMosaic.TcCoe Idealize.SL.Sem Cert.KernelIdeal Cert.KernelIdeal.Gen
open Idealize.ShloMosaic.ValueIdx Cert.Quant Cert.KernelIdeal.Tile
open Idealize.ShloMosaic.Pipeline (Dat)

variable (m : (ℓ : Loc nD τ sig) → Buf (Elt Ideal) ℓ) (ρ : Dev nD → PrngReg)

/-- What the last step of a run writes back is its tile of the layer's output. -/
theorem flushed_eq (c : Dev nD) (t : Fin cfg0.N) (hf : (cfg0.win 3).flush t = true) :
    (dats m 0 c).flushed 3 t
      = ((cfg0.win 3).blk t).view.read (Elt Ideal) (out2 (argX m c) (argW m c) (argB m c)) := by
  have h1 : t.val % 8 = 7 := (flush0_3 t).mp hf
  show (cfg0.win 3).cut (grid0.coords t) ((dats m 0 c).after 3 t) = _
  rw [after0_3]
  funext j
  obtain ⟨r, q, rfl⟩ : ∃ (r : Fin 1024) (q : Fin 1024), j = ix2 r q := ⟨j 0, j 1, eq_ix2 j⟩
  show (outsAt0 m c t.val t.isLt).1 (ix2 r q)
    = out2 (argX m c) (argW m c) (argB m c) (((cfg0.win 3).blk t).view.emb (ix2 r q))
  rw [out_eq m c t h1 r q]
  congr 1
  funext a
  apply Fin.ext
  match a with
  | ⟨0, _⟩ => show t.val / 32 * 1024 + r.val = win0_3.index t 0 * 1024 + 1 * r.val; rw [(idx_o t).1]; omega
  | ⟨1, _⟩ => show t.val / 8 % 4 * 1024 + q.val = win0_3.index t 1 * 1024 + 1 * q.val; rw [(idx_o t).2]; omega

/-- The 32 written tiles cover the array: it ends at the layer's output as 8192 rows. -/
theorem final (c : Dev nD) : (dats m 0 c).arrAt 3 cfg0.N = out2 (argX m c) (argW m c) (argB m c) :=
  (dats m 0 c).arrAt_eq_of_cover 3 (out2 (argX m c) (argW m c) (argB m c)) (flushed_eq m c) fun i => by
    have h0 : (i 0).val < 8192 := (i 0).isLt
    have h1 : (i 1).val < 4096 := (i 1).isLt
    have hN : cfg0.N = 256 := N_0
    obtain ⟨t, ht⟩ : ∃ t : Fin cfg0.N, t.val = ((i 0).val / 1024 * 4 + (i 1).val / 1024) * 8 + 7 :=
      ⟨⟨((i 0).val / 1024 * 4 + (i 1).val / 1024) * 8 + 7, by rw [hN]; omega⟩, rfl⟩
    refine ⟨t, (flush0_3 t).mpr (by omega), ?_⟩
    show i ∈ ((View.whole main_v1).slice (win0_3.rect t)).set
    rw [View.set_slice_whole, Rect.mem_set_unit]
    intro a
    match a with
    | ⟨0, _⟩ =>
      show win0_3.index t 0 * 1024 ≤ (i 0).val ∧ (i 0).val < win0_3.index t 0 * 1024 + 1024
      rw [(idx_o t).1]; omega
    | ⟨1, _⟩ =>
      show win0_3.index t 1 * 1024 ≤ (i 1).val ∧ (i 1).val < win0_3.index t 1 * 1024 + 1024
      rw [(idx_o t).2]; omega

/-- After the reshape that follows the region the result has the shape of `x`. -/
theorem tail_eq (c : Dev nD) :
    Pipeline.afterTail₀ cfgs (dats m) 0 (V0 m) [hostOps1] c main_v2 = out (argX m c) (argW m c) (argB m c) := by
  unfold Pipeline.afterTail₀
  show StableHlo.after hostOps1 _ (Proc.devRef .tc main_v2) = _
  after_results
  funext j
  show shapeCast S4x2048x4096 (Pipeline.withArrays (cfgs 0).spec c (V0 m c) (fun w => (dats m 0 c).arrAt w (cfgs 0).N)
    (Proc.devRef .tc main_v1)) shapeCasts_S8192x4096_S4x2048x4096 j = _
  have hA : Pipeline.withArrays (cfgs 0).spec c (V0 m c) (fun w => (dats m 0 c).arrAt w (cfgs 0).N) (Proc.devRef .tc main_v1)
      = out2 (argX m c) (argW m c) (argB m c) :=
    (Pipeline.withArrays_arr spec0 launch0.win.arr_inj c _ _ 3).trans (final m c)
  rw [hA]
  unfold out
  refine shapeCast_apply _ shapeCasts_S8192x4096_S4x2048x4096 j _ ?_
  rewrite [Shape.rowMajor_val_two, Shape.rowMajor_val_three]
  rfl

/-- The kernel's run, read: its result at the layer's output, its arguments unchanged. -/
theorem run : θ_run defs (onTc (τ := τ) (main (F := Ideal))) ⟨m, fun _ => 0, ρ⟩ fun r => ∀ c : Dev nD,
      r.2.mem ((c.tc : Thread nD τ).loc main_v2) = out (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Acc

end
-- ==== Proof.RefValue.lean ====
/-
  The reference program's result, entry by entry, is the quantised linear layer.
-/
import proofs.«116556_j76888504533247_1_alg».proof.Proof.Gen.ReferenceIdeal.Run
import proofs.«116556_j76888504533247_1_alg».proof.Proof.Gen.ReferenceIdeal.Read
import proofs.«116556_j76888504533247_1_alg».proof.Proof.QuantSpec
import Idealize.ShloMosaic.PureOps.Reduce

noncomputable section

open scoped BigOperators

namespace Cert.RefValue

open Idealize.ShloMosaic Idealize.ShloMosaic.ValueIdx Cert.ReferenceIdeal Cert.ReferenceIdeal.Gen Cert.ReferenceIdeal.Read Cert.Quant

/-! ### The weight operand: rows of 4096 cut into 32 groups of 128, top level 7 -/

/-- The group's 128 entries of row `o` of the weight. -/
abbrev wgrp (W : (⟨S4096x4096, .f32⟩ : BufTy).Contents (Elt Ideal)) (o : Fin 4096) (g : Fin 32) : Fin 128 → EReal :=
  fun l => W (ix2 o (⟨g.val * 128 + l.val, by have := g.isLt; have := l.isLt; omega⟩ : Fin 4096))

theorem redW : S4096x32x128.Reduces [2] S4096x32 := by decide

/-- The index over `(o, g)` with `l` put on the reduced axis is `(o, g, l)`. -/
theorem liftW (o : Fin 4096) (g : Fin 32) (l : Fin 128) :
    redW.lift (ix2 o g) l = ix3 o g l := by
  funext a
  apply Fin.ext
  match a with
  | ⟨0, _⟩ => rfl
  | ⟨1, _⟩ => rfl
  | ⟨2, _⟩ => rfl

/-- Entry `(o, g, l)` of the regrouped weight is entry `(o, 128·g + l)`. -/
theorem idx0W (o : Fin 4096) (g : Fin 32) (l : Fin 128) :
    idx_main_v0 (ix3 o g l) = ix2 o (⟨g.val * 128 + l.val, by have := g.isLt; have := l.isLt; omega⟩ : Fin 4096) := by
  have := o.isLt; have := g.isLt; have := l.isLt
  funext a
  apply Fin.ext
  match a with
  | ⟨0, _⟩ => show ((o.val * 32 + g.val) * 128 + l.val) / 4096 = o.val; omega
  | ⟨1, _⟩ => show ((o.val * 32 + g.val) * 128 + l.val) % 4096 = g.val * 128 + l.val; omega

theorem v0W (W : (⟨S4096x4096, .f32⟩ : BufTy).Contents (Elt Ideal)) (o : Fin 4096) (g : Fin 32) (l : Fin 128) :
    val_main_v0 (F := Ideal) W (ix3 o g l) = wgrp W o g l := by
  rw [val_main_v0_apply, idx0W]

/-- The maximum over the last axis is the group's largest magnitude. -/
theorem v2W (W : (⟨S4096x4096, .f32⟩ : BufTy).Contents (Elt Ideal)) (o : Fin 4096) (g : Fin 32) :
    val_main_v2 (F := Ideal) W (ix2 o g) = gmax (wgrp W o g) := by
  have hf : ∀ l : Fin 128, val_main_v1 (F := Ideal) W (redW.lift (ix2 o g) l)
      = max (wgrp W o g l) (-(wgrp W o g l)) := by
    intro l
    rw [liftW, val_main_v1_apply, v0W]
    rfl
  unfold val_main_v2
  refine (Host.reduce_eq_fold_single (FloatOps.maximumf (F := Ideal) (φ := .f32)) (val_main_v1 (F := Ideal) W)
    (val_main_cst (F := Ideal)) reducesTo_S4096x32x128_S4096x32_d2 redW h_S_ (ix2 o g)).trans ?_
  unfold gmax
  exact congrArg (fun f => Finset.fold max (lit 0xFF800000#32) f (Finset.univ : Finset (Fin 128))) (funext hf)

theorem v5W (W : (⟨S4096x4096, .f32⟩ : BufTy).Contents (Elt Ideal)) (o : Fin 4096) (g : Fin 32) (z : Fin 1) :
    val_main_v5 (F := Ideal) W (ix3 o g z) = Ideal.div (gmax (wgrp W o g)) (lit 0x40E00000#32) := by
  have e : idx_main_v3 (ix3 o g z) = ix2 o g := by
    funext a
    match a with
    | ⟨0, _⟩ => rfl
    | ⟨1, _⟩ => rfl
  rw [val_main_v5_apply, val_main_v3_apply, val_main_v4_apply, val_main_cst_0_apply, e, v2W]
  rfl

/-- The selected quotient is the group's step. -/
theorem v9W (W : (⟨S4096x4096, .f32⟩ : BufTy).Contents (Elt Ideal)) (o : Fin 4096) (g : Fin 32) (z : Fin 1) :
    val_main_v9 (F := Ideal) W (ix3 o g z) = step 0x40E00000#32 (wgrp W o g) := by
  rw [val_main_v9_apply, val_main_v7_apply, val_main_v6_apply, val_main_cst_1_apply, val_main_v8_apply,
    val_main_cst_2_apply, v5W]
  rfl

theorem v10W (W : (⟨S4096x4096, .f32⟩ : BufTy).Contents (Elt Ideal)) (o : Fin 4096) (g : Fin 32) (l : Fin 128) :
    val_main_v10 (F := Ideal) W (ix3 o g l) = step 0x40E00000#32 (wgrp W o g) := by
  have e : idx_main_v10 (ix3 o g l) = ix3 o g (⟨0, Nat.one_pos⟩ : Fin 1) := by
    funext a
    match a with
    | ⟨0, _⟩ => rfl
    | ⟨1, _⟩ => rfl
    | ⟨2, _⟩ => rfl
  rw [val_main_v10_apply, e, v9W]

theorem v14W (W : (⟨S4096x4096, .f32⟩ : BufTy).Contents (Elt Ideal)) (o : Fin 4096) (g : Fin 32) (l : Fin 128) :
    val_main_v14 (F := Ideal) W (ix3 o g l) = step 0x40E00000#32 (wgrp W o g) := by
  have e : idx_main_v14 (ix3 o g l) = ix3 o g (⟨0, Nat.one_pos⟩ : Fin 1) := by
    funext a
    match a with
    | ⟨0, _⟩ => rfl
    | ⟨1, _⟩ => rfl
    | ⟨2, _⟩ => rfl
  rw [val_main_v14_apply, e, v9W]

/-- Entry `(o, g, l)` after division, rounding, clipping and multiplication is the requantised entry. -/
theorem v15W (W : (⟨S4096x4096, .f32⟩ : BufTy).Contents (Elt Ideal)) (o : Fin 4096) (g : Fin 32) (l : Fin 128) :
    val_main_v15 (F := Ideal) W (ix3 o g l)
      = fq 0x40E00000#32 0xC0E00000#32 (wgrp W o g) (wgrp W o g l) := by
  rw [val_main_v15_apply, val_main_v13_apply, val_main_call2_v4_apply, val_main_call2_v3_apply, val_main_cst_4_apply,
    val_main_call2_v2_apply, val_main_call2_v1_apply, val_main_call2_v0_apply, val_main_cst_3_apply,
    val_main_v12_apply, val_main_v11_apply, v0W, v10W, v14W]
  rfl

/-- Entry `(o, k)` of the flattened result lies in group `k / 128` at place `k % 128`. -/
theorem idx16W (o k : Fin 4096) :
    idx_main_v16 (ix2 o k) = ix3 o (⟨k.val / 128, by have := k.isLt; omega⟩ : Fin 32)
      (⟨k.val % 128, Nat.mod_lt _ (by decide)⟩ : Fin 128) := by
  have := o.isLt; have := k.isLt
  funext a
  apply Fin.ext
  match a with
  | ⟨0, _⟩ => show (o.val * 4096 + k.val) / 4096 = o.val; omega
  | ⟨1, _⟩ => show (o.val * 4096 + k.val) / 128 % 32 = k.val / 128; omega
  | ⟨2, _⟩ => show (o.val * 4096 + k.val) % 128 = k.val % 128; omega

/-- The weight operand of the product is the rows of the weight requantised at four bits. -/
theorem v16W (W : (⟨S4096x4096, .f32⟩ : BufTy).Contents (Elt Ideal)) (o k : Fin 4096) :
    val_main_v16 (F := Ideal) W (ix2 o k) = qrow 0x40E00000#32 0xC0E00000#32 (wrow W o) k := by
  have hk : (⟨k.val / 128 * 128 + k.val % 128, by have := k.isLt; omega⟩ : Fin 4096) = k :=
    Fin.ext (Nat.div_add_mod' k.val 128)
  rw [val_main_v16_apply, idx16W, v15W]
  unfold qrow wrow
  show fq _ _ _ (W (ix2 o _)) = fq _ _ _ (W (ix2 o k))
  rw [hk]

/-! ### The activation operand: rows of 4096 cut into 32 groups of 128, top level 127 -/

/-- The group's 128 entries of row `(b, s)` of the activation. -/
abbrev xgrp (X : (⟨S4x2048x4096, .f32⟩ : BufTy).Contents (Elt Ideal)) (b : Fin 4) (s : Fin 2048) (g : Fin 32) :
    Fin 128 → EReal :=
  fun l => X (ix3 b s (⟨g.val * 128 + l.val, by have := g.isLt; have := l.isLt; omega⟩ : Fin 4096))

theorem redX : S4x2048x32x128.Reduces [3] S4x2048x32 := by decide

/-- The index over `(b, s, g)` with `l` put on the reduced axis is `(b, s, g, l)`. -/
theorem liftX (b : Fin 4) (s : Fin 2048) (g : Fin 32) (l : Fin 128) :
    redX.lift (ix3 b s g) l = ix4 b s g l := by
  funext a
  apply Fin.ext
  match a with
  | ⟨0, _⟩ => rfl
  | ⟨1, _⟩ => rfl
  | ⟨2, _⟩ => rfl
  | ⟨3, _⟩ => rfl

/-- Entry `(b, s, g, l)` of the regrouped activation is entry `(b, s, 128·g + l)`. -/
theorem idx17X (b : Fin 4) (s : Fin 2048) (g : Fin 32) (l : Fin 128) :
    idx_main_v17 (ix4 b s g l)
      = ix3 b s (⟨g.val * 128 + l.val, by have := g.isLt; have := l.isLt; omega⟩ : Fin 4096) := by
  have := b.isLt; have := s.isLt; have := g.isLt; have := l.isLt
  funext a
  apply Fin.ext
  match a with
  | ⟨0, _⟩ => show (((b.val * 2048 + s.val) * 32 + g.val) * 128 + l.val) / 8388608 = b.val; omega
  | ⟨1, _⟩ => show (((b.val * 2048 + s.val) * 32 + g.val) * 128 + l.val) / 4096 % 2048 = s.val; omega
  | ⟨2, _⟩ => show (((b.val * 2048 + s.val) * 32 + g.val) * 128 + l.val) % 4096 = g.val * 128 + l.val; omega

theorem v17X (X : (⟨S4x2048x4096, .f32⟩ : BufTy).Contents (Elt Ideal)) (b : Fin 4) (s : Fin 2048) (g : Fin 32)
    (l : Fin 128) : val_main_v17 (F := Ideal) X (ix4 b s g l) = xgrp X b s g l := by
  rw [val_main_v17_apply, idx17X]

/-- The maximum over the last axis is the group's largest magnitude. -/
theorem v19X (X : (⟨S4x2048x4096, .f32⟩ : BufTy).Contents (Elt Ideal)) (b : Fin 4) (s : Fin 2048) (g : Fin 32) :
    val_main_v19 (F := Ideal) X (ix3 b s g) = gmax (xgrp X b s g) := by
  have hf : ∀ l : Fin 128, val_main_v18 (F := Ideal) X (redX.lift (ix3 b s g) l)
      = max (xgrp X b s g l) (-(xgrp X b s g l)) := by
    intro l
    rw [liftX, val_main_v18_apply, v17X]
    rfl
  unfold val_main_v19
  refine (Host.reduce_eq_fold_single (FloatOps.maximumf (F := Ideal) (φ := .f32)) (val_main_v18 (F := Ideal) X)
    (val_main_cst_5 (F := Ideal)) reducesTo_S4x2048x32x128_S4x2048x32_d3 redX h_S_ (ix3 b s g)).trans ?_
  unfold gmax
  exact congrArg (fun f => Finset.fold max (lit 0xFF800000#32) f (Finset.univ : Finset (Fin 128))) (funext hf)

theorem v22X (X : (⟨S4x2048x4096, .f32⟩ : BufTy).Contents (Elt Ideal)) (b : Fin 4) (s : Fin 2048) (g : Fin 32)
    (z : Fin 1) :
    val_main_v22 (F := Ideal) X (ix4 b s g z) = Ideal.div (gmax (xgrp X b s g)) (lit 0x42FE0000#32) := by
  have e : idx_main_v20 (ix4 b s g z) = ix3 b s g := by
    funext a
    match a with
    | ⟨0, _⟩ => rfl
    | ⟨1, _⟩ => rfl
    | ⟨2, _⟩ => rfl
  rw [val_main_v22_apply, val_main_v20_apply, val_main_v21_apply, val_main_cst_6_apply, e, v19X]
  rfl

/-- The selected quotient is the group's step. -/
theorem v26X (X : (⟨S4x2048x4096, .f32⟩ : BufTy).Contents (Elt Ideal)) (b : Fin 4) (s : Fin 2048) (g : Fin 32)
    (z : Fin 1) :
    val_main_v26 (F := Ideal) X (ix4 b s g z) = step 0x42FE0000#32 (xgrp X b s g) := by
  rw [val_main_v26_apply, val_main_v24_apply, val_main_v23_apply, val_main_cst_7_apply, val_main_v25_apply,
    val_main_cst_8_apply, v22X]
  rfl

theorem v27X (X : (⟨S4x2048x4096, .f32⟩ : BufTy).Contents (Elt Ideal)) (b : Fin 4) (s : Fin 2048) (g : Fin 32)
    (l : Fin 128) :
    val_main_v27 (F := Ideal) X (ix4 b s g l) = step 0x42FE0000#32 (xgrp X b s g) := by
  have e : idx_main_v27 (ix4 b s g l) = ix4 b s g (⟨0, Nat.one_pos⟩ : Fin 1) := by
    funext a
    match a with
    | ⟨0, _⟩ => rfl
    | ⟨1, _⟩ => rfl
    | ⟨2, _⟩ => rfl
    | ⟨3, _⟩ => rfl
  rw [val_main_v27_apply, e, v26X]

theorem v31X (X : (⟨S4x2048x4096, .f32⟩ : BufTy).Contents (Elt Ideal)) (b : Fin 4) (s : Fin 2048) (g : Fin 32)
    (l : Fin 128) :
    val_main_v31 (F := Ideal) X (ix4 b s g l) = step 0x42FE0000#32 (xgrp X b s g) := by
  have e : idx_main_v31 (ix4 b s g l) = ix4 b s g (⟨0, Nat.one_pos⟩ : Fin 1) := by
    funext a
    match a with
    | ⟨0, _⟩ => rfl
    | ⟨1, _⟩ => rfl
    | ⟨2, _⟩ => rfl
    | ⟨3, _⟩ => rfl
  rw [val_main_v31_apply, e, v26X]

/-- Entry `(b, s, g, l)` after division, rounding, clipping and multiplication is the requantised entry. -/
theorem v32X (X : (⟨S4x2048x4096, .f32⟩ : BufTy).Contents (Elt Ideal)) (b : Fin 4) (s : Fin 2048) (g : Fin 32)
    (l : Fin 128) :
    val_main_v32 (F := Ideal) X (ix4 b s g l)
      = fq 0x42FE0000#32 0xC2FE0000#32 (xgrp X b s g) (xgrp X b s g l) := by
  rw [val_main_v32_apply, val_main_v30_apply, val_main_call5_v4_apply, val_main_call5_v3_apply, val_main_cst_10_apply,
    val_main_call5_v2_apply, val_main_call5_v1_apply, val_main_call5_v0_apply, val_main_cst_9_apply,
    val_main_v29_apply, val_main_v28_apply, v17X, v27X, v31X]
  rfl

/-- Entry `(b, s, k)` of the flattened result lies in group `k / 128` at place `k % 128`. -/
theorem idx33X (b : Fin 4) (s : Fin 2048) (k : Fin 4096) :
    idx_main_v33 (ix3 b s k) = ix4 b s (⟨k.val / 128, by have := k.isLt; omega⟩ : Fin 32)
      (⟨k.val % 128, Nat.mod_lt _ (by decide)⟩ : Fin 128) := by
  have := b.isLt; have := s.isLt; have := k.isLt
  funext a
  apply Fin.ext
  match a with
  | ⟨0, _⟩ => show ((b.val * 2048 + s.val) * 4096 + k.val) / 8388608 = b.val; omega
  | ⟨1, _⟩ => show ((b.val * 2048 + s.val) * 4096 + k.val) / 4096 % 2048 = s.val; omega
  | ⟨2, _⟩ => show ((b.val * 2048 + s.val) * 4096 + k.val) / 128 % 32 = k.val / 128; omega
  | ⟨3, _⟩ => show ((b.val * 2048 + s.val) * 4096 + k.val) % 128 = k.val % 128; omega

/-- The activation operand of the product is the rows of the activation requantised at eight bits. -/
theorem v33X (X : (⟨S4x2048x4096, .f32⟩ : BufTy).Contents (Elt Ideal)) (b : Fin 4) (s : Fin 2048) (k : Fin 4096) :
    val_main_v33 (F := Ideal) X (ix3 b s k)
      = qrow 0x42FE0000#32 0xC2FE0000#32 (fun i => X (ix3 b s i)) k := by
  have hk : (⟨k.val / 128 * 128 + k.val % 128, by have := k.isLt; omega⟩ : Fin 4096) = k :=
    Fin.ext (Nat.div_add_mod' k.val 128)
  rw [val_main_v33_apply, idx33X, v32X]
  unfold qrow
  show fq _ _ _ (X (ix3 b s _)) = fq _ _ _ (X (ix3 b s k))
  rw [hk]

/-! ### The product, the bias, and the layer -/

/-- The reference's last stage is the layer's output. -/
theorem ref_eq (X : (⟨S4x2048x4096, .f32⟩ : BufTy).Contents (Elt Ideal)) (W : (⟨S4096x4096, .f32⟩ : BufTy).Contents (Elt Ideal))
    (B : (⟨S4096, .f32⟩ : BufTy).Contents (Elt Ideal)) :
    val_main_v37 (F := Ideal) X W B = Cert.Quant.out X W B := by
  funext j
  obtain ⟨b, s, o, rfl⟩ : ∃ b s o, j = ix3 b s o := ⟨j 0, j 1, j 2, eq_ix3 j⟩
  have el : ∀ k : Fin 4096, lidx_main_v34 (ix3 b s o) k = ix3 b s k := by
    intro k
    funext a
    match a with
    | ⟨0, _⟩ => rfl
    | ⟨1, _⟩ => rfl
    | ⟨2, _⟩ => rfl
  have er : ∀ k : Fin 4096, ridx_main_v34 (ix3 b s o) k = ix2 o k := by
    intro k
    funext a
    match a with
    | ⟨0, _⟩ => rfl
    | ⟨1, _⟩ => rfl
  have eb : idx_main_v35 (idx_main_v36 (ix3 b s o)) = ix1 o := by
    funext a
    match a with
    | ⟨0, _⟩ => rfl
  rw [val_main_v37_apply, val_main_v34_apply, val_main_v36_apply, val_main_v35_apply, eb]
  show (∑ k : Fin 4096, _) + B (ix1 o)
    = ∑ k ∈ Finset.range 4096, term X W (⟨b.val * 2048 + s.val, by have := b.isLt; have := s.isLt; omega⟩ : Fin 8192) o k
      + B (ix1 o)
  rw [Cert.Quant.sum_term, Cert.Quant.xrow_of]
  refine congrArg (· + B (ix1 o)) (Finset.sum_congr rfl fun k _ => ?_)
  rw [el, er, v33X, v16W]

end Cert.RefValue

end
-- ==== Proof.lean ====
/-
  A group-wise fake-quantised linear layer: the kernel against its reference, over the extended reals.

  Both programs requantise every group of 128 consecutive entries of a row — the activations at eight bits, the weight
  at four — by the same chain of exact operations (largest magnitude, division by the top level, a zero step replaced
  by one, division, rounding to even, clipping, multiplication back), and both then form
  `Σₖ qx[M, k] · qw[o, k] + bias[o]` over the 4096 columns. The reference takes that sum at once; the kernel walks the
  columns in eight runs of 512, adding each run's 512 products to an accumulator it reset at the first run, and adds
  the bias after the last. A sum taken in consecutive runs is the sum: addition on the extended reals is commutative
  and associative, and nothing else is used, so the precondition is never opened. The casts to bf16 before the matrix
  product are the identity on the extended reals, and the kernel's matrix product into a zero accumulator is the
  reference's contraction.

  The kernel's frames are the generated ones; the reference's frame is its generated run with the result dropped. The
  kernel's value is read off the generated frame run: the accumulator after each grid step by induction over the
  steps, the output tiles covering the result array, the reshape after the region. The reference's value is its
  generated run read one operation at a time.
-/
import proofs.«116556_j76888504533247_1_alg».proof.Defs
import proofs.«116556_j76888504533247_1_alg».proof.Proof.Gen.Kernel
import proofs.«116556_j76888504533247_1_alg».proof.Proof.Gen.Kernel.Skeleton
import proofs.«116556_j76888504533247_1_alg».proof.Proof.Gen.Kernel.Launch
import proofs.«116556_j76888504533247_1_alg».proof.Proof.Gen.Kernel.Points
import proofs.«116556_j76888504533247_1_alg».proof.Proof.Gen.Kernel.Frame
import proofs.«116556_j76888504533247_1_alg».proof.Proof.Gen.KernelIdeal
import proofs.«116556_j76888504533247_1_alg».proof.Proof.Gen.KernelIdeal.Skeleton
import proofs.«116556_j76888504533247_1_alg».proof.Proof.Gen.KernelIdeal.Launch
import proofs.«116556_j76888504533247_1_alg».proof.Proof.Gen.KernelIdeal.Points
import proofs.«116556_j76888504533247_1_alg».proof.Proof.Gen.KernelIdeal.Frame
import proofs.«116556_j76888504533247_1_alg».proof.Proof.Gen.ReferenceIdeal
import proofs.«116556_j76888504533247_1_alg».proof.Proof.Gen.ReferenceIdeal.Run
import proofs.«116556_j76888504533247_1_alg».proof.Proof.Gen.ReferenceIdeal.Read
import proofs.«116556_j76888504533247_1_alg».proof.Proof.Gen.Pre_finite_inputs
import proofs.«116556_j76888504533247_1_alg».proof.Proof.KernelValue
import proofs.«116556_j76888504533247_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From arguments that agree, the kernel's result array and the reference's both end at the layer's output. -/
theorem algebraic : Cert.algebraic_KernelIdeal_ReferenceIdeal := by
  intro m ρ m' ρ' _ hagree
  refine ⟨fun c => Cert.Quant.out (Cert.KernelIdeal.Acc.argX m c) (Cert.KernelIdeal.Acc.argW m c) (Cert.KernelIdeal.Acc.argB m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
